-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x8 : Shape := ⟨2, ![2000000, 8]⟩
abbrev S_ : Shape := ⟨0, ![]⟩

class Facts : Prop where
  bcast_S_S2000000x8 : S_.BroadcastsInDim S2000000x8 (![] : Fin 0 → Fin S2000000x8.rank)
  reducesTo_S2000000x8_S_d0_1 : S2000000x8.ReducesTo [0, 1] S_
  h_S_ : 0 < S_.numel

variable [Facts]

def fn {F : FTy → Type} [FloatOps F] (main_arg0 : FVec F S2000000x8 .f32) (main_arg1 : FVec F S2000000x8 .f32) : IVec S_ 1 :=
  let main_v0 : FVec F S2000000x8 .f32 := Host.absf main_arg0
  let main_cst : FVec F S_ .f32 := constant S_ .f32 0x7F800000#32
  let main_v1 : FVec F S2000000x8 .f32 := broadcastInDim S2000000x8 ![] bcast_S_S2000000x8 main_cst
  let main_v2 : IVec S2000000x8 1 := cmpf .olt main_v0 main_v1
  let main_c : IVec S_ 1 := constantI S_ 1 1#1
  let main_v3 : IVec S_ 1 := (fun x v => Host.reduce IntOp.andi x v reducesTo_S2000000x8_S_d0_1 h_S_) main_v2 main_c
  let main_v4 : FVec F S2000000x8 .f32 := Host.absf main_arg1
  let main_cst_0 : FVec F S_ .f32 := constant S_ .f32 0x7F800000#32
  let main_v5 : FVec F S2000000x8 .f32 := broadcastInDim S2000000x8 ![] bcast_S_S2000000x8 main_cst_0
  let main_v6 : IVec S2000000x8 1 := cmpf .olt main_v4 main_v5
  let main_c_1 : IVec S_ 1 := constantI S_ 1 1#1
  let main_v7 : IVec S_ 1 := (fun x v => Host.reduce IntOp.andi x v reducesTo_S2000000x8_S_d0_1 h_S_) main_v6 main_c_1
  let main_v8 : IVec S_ 1 := andi main_v3 main_v7
  main_v8
-- ==== Kernel.lean ====
abbrev S2000000x8 : Shape := ⟨2, ![2000000, 8]⟩
abbrev S8 : Shape := ⟨1, ![8]⟩
abbrev S1x8 : Shape := ⟨2, ![1, 8]⟩
abbrev S2000000x1 : Shape := ⟨2, ![2000000, 1]⟩
abbrev S100000x8 : Shape := ⟨2, ![100000, 8]⟩
abbrev S100000x1 : Shape := ⟨2, ![100000, 1]⟩
abbrev S100000 : Shape := ⟨1, ![100000]⟩
abbrev S2000000 : Shape := ⟨1, ![2000000]⟩

abbrev nBuf : Space → Nat
  | .hbm => 8
  | .vmem => 8
  | .smem => 0
  | _ => 0

abbrev bufTy : (tb : Table) → Fin (tcTables nBuf tb) → BufTy
  | .hbm, ⟨0, _⟩ => ⟨S2000000x8, .f32⟩
  | .hbm, ⟨1, _⟩ => ⟨S2000000x8, .f32⟩
  | .hbm, ⟨2, _⟩ => ⟨S8, .f32⟩
  | .hbm, ⟨3, _⟩ => ⟨S8, .f32⟩
  | .hbm, ⟨4, _⟩ => ⟨S1x8, .f32⟩
  | .hbm, ⟨5, _⟩ => ⟨S1x8, .f32⟩
  | .hbm, ⟨6, _⟩ => ⟨S2000000x1, .f32⟩
  | .hbm, ⟨7, _⟩ => ⟨S2000000, .f32⟩
  | .local _ .vmem, ⟨0, _⟩ => ⟨S100000x8, .f32⟩
  | .local _ .vmem, ⟨1, _⟩ => ⟨S100000x8, .f32⟩
  | .local _ .vmem, ⟨2, _⟩ => ⟨S100000x8, .f32⟩
  | .local _ .vmem, ⟨3, _⟩ => ⟨S100000x8, .f32⟩
  | .local _ .vmem, ⟨4, _⟩ => ⟨S1x8, .f32⟩
  | .local _ .vmem, ⟨5, _⟩ => ⟨S1x8, .f32⟩
  | .local _ .vmem, ⟨6, _⟩ => ⟨S100000x1, .f32⟩
  | .local _ .vmem, ⟨7, _⟩ => ⟨S100000x1, .f32⟩
  | _, _ => ⟨S2000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S100000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S100000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S100000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8_S1x8 : S8.ShapeCasts S1x8
  inb_S100000x8_S100000x8_0_0 : ∀ a, (![0, 0] : Fin 2 → Nat) a + S100000x8.size a ≤ S100000x8.size a
  h_S100000x8 : 0 < S100000x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S100000x8 : S1x8.Broadcasts S100000x8
  reduces_S100000x8_S100000 : S100000x8.Reduces [1] S100000
  shapeCasts_S100000_S100000x1 : S100000.ShapeCasts S100000x1
  inb_S100000x1_S100000x1_0_0 : ∀ a, (![0, 0] : Fin 2 → Nat) a + S100000x1.size a ≤ S100000x1.size a
  h_S100000x1 : 0 < S100000x1.numel
  shapeCasts_S2000000x1_S2000000 : S2000000x1.ShapeCasts S2000000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100000x8.size a ≤ S2000000x8.size a
  hwx0_0 : ∀ i : grid0.Coords, EltTy.bits .f32 = 32 ∨ (Rect.block (s := S2000000x8) S100000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S100000x8.size a ≤ S2000000x8.size a
  hwx0_1 : ∀ i : grid0.Coords, EltTy.bits .f32 = 32 ∨ (Rect.block (s := S2000000x8) S100000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S100000x1.size a ≤ S2000000x1.size a
  hwx0_4 : ∀ i : grid0.Coords, EltTy.bits .f32 = 32 ∨ (Rect.block (s := S2000000x1) S100000x1.size (cc0_transform_4 i) (hinb0_4 i)).WholeWords (EltTy.packing .f32)

variable [Facts₀]

abbrev win0_0 : Pipeline.Window sig grid0 :=
  Pipeline.Window.ofSpec (Memref.whole main_arg0) S100000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S100000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x8 : Shape := ⟨2, ![2000000, 8]⟩
abbrev S8 : Shape := ⟨1, ![8]⟩
abbrev S1x8 : Shape := ⟨2, ![1, 8]⟩
abbrev S_ : Shape := ⟨0, ![]⟩
abbrev S2000000 : Shape := ⟨1, ![2000000]⟩

abbrev nBuf : Space → Nat
  | .hbm => 38
  | .vmem => 0
  | .smem => 0
  | _ => 0

abbrev bufTy : (tb : Table) → Fin (tcTables nBuf tb) → BufTy
  | .hbm, ⟨0, _⟩ => ⟨S2000000x8, .f32⟩
  | .hbm, ⟨1, _⟩ => ⟨S2000000x8, .f32⟩
  | .hbm, ⟨2, _⟩ => ⟨S8, .f32⟩
  | .hbm, ⟨3, _⟩ => ⟨S8, .f32⟩
  | .hbm, ⟨4, _⟩ => ⟨S1x8, .f32⟩
  | .hbm, ⟨5, _⟩ => ⟨S2000000x8, .f32⟩
  | .hbm, ⟨6, _⟩ => ⟨S2000000x8, .f32⟩
  | .hbm, ⟨7, _⟩ => ⟨S_, .f32⟩
  | .hbm, ⟨8, _⟩ => ⟨S2000000x8, .f32⟩
  | .hbm, ⟨9, _⟩ => ⟨S2000000x8, .f32⟩
  | .hbm, ⟨10, _⟩ => ⟨S1x8, .f32⟩
  | .hbm, ⟨11, _⟩ => ⟨S2000000x8, .f32⟩
  | .hbm, ⟨12, _⟩ => ⟨S2000000x8, .f32⟩
  | .hbm, ⟨13, _⟩ => ⟨S2000000x8, .f32⟩
  | .hbm, ⟨14, _⟩ => ⟨S2000000x8, .f32⟩
  | .hbm, ⟨15, _⟩ => ⟨S_, .f32⟩
  | .hbm, ⟨16, _⟩ => ⟨S2000000x8, .f32⟩
  | .hbm, ⟨17, _⟩ => ⟨S2000000x8, .f32⟩
  | .hbm, ⟨18, _⟩ => ⟨S2000000x8, .f32⟩
  | .hbm, ⟨19, _⟩ => ⟨S2000000x8, .f32⟩
  | .hbm, ⟨20, _⟩ => ⟨S_, .f32⟩
  | .hbm, ⟨21, _⟩ => ⟨S2000000x8, .f32⟩
  | .hbm, ⟨22, _⟩ => ⟨S2000000x8, .f32⟩
  | .hbm, ⟨23, _⟩ => ⟨S_, .f32⟩
  | .hbm, ⟨24, _⟩ => ⟨S2000000x8, .f32⟩
  | .hbm, ⟨25, _⟩ => ⟨S2000000x8, .f32⟩
  | .hbm, ⟨26, _⟩ => ⟨S_, .f32⟩
  | .hbm, ⟨27, _⟩ => ⟨S2000000x8, .f32⟩
  | .hbm, ⟨28, _⟩ => ⟨S2000000x8, .f32⟩
  | .hbm, ⟨29, _⟩ => ⟨S2000000x8, .f32⟩
  | .hbm, ⟨30, _⟩ => ⟨S2000000x8, .f32⟩
  | .hbm, ⟨31, _⟩ => ⟨S2000000x8, .f32⟩
  | .hbm, ⟨32, _⟩ => ⟨S2000000x8, .f32⟩
  | .hbm, ⟨33, _⟩ => ⟨S_, .f32⟩
  | .hbm, ⟨34, _⟩ => ⟨S2000000, .f32⟩
  | .hbm, ⟨35, _⟩ => ⟨S_, .f32⟩
  | .hbm, ⟨36, _⟩ => ⟨S2000000, .f32⟩
  | .hbm, ⟨37, _⟩ => ⟨S2000000, .f32⟩
  | _, _ => ⟨S2000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S2000000x8_0_1 : S1x8.BroadcastsInDim S2000000x8 (![0, 1] : Fin 2 → Fin S2000000x8.rank)
  bcast_S_S2000000x8 : S_.BroadcastsInDim S2000000x8 (![] : Fin 0 → Fin S2000000x8.rank)
  reducesTo_S2000000x8_S2000000_d1 : S2000000x8.ReducesTo [1] S2000000
  h_S_ : 0 < S_.numel

variable [Facts₀]

class Facts : Prop extends Facts₀ where

variable [Facts]
-- ==== Proof.Spec.lean ====
/-
  The weighted binary cross-entropy of one example, over the extended reals.

  An example has eight targets. With class weights `wp k` (positive label) and `wn k` (negative label), a predicted
  probability `x k` and a label `y k`, the weight of target `k` is `w k = y k · wp k + (1 - y k) · wn k`, its loss is
  `-(w k) · (y k · log (x k + ε) + (1 - y k) · log (1 - x k + ε))`, and the example's loss is the weighted mean
  `(∑ k, loss k) / (∑ k, w k)`. The constants `1` and `ε` are the float32 words the programs carry, read as the
  extended reals they denote; they are never evaluated, since both programs carry the same words.
-/
import Idealize.ShloMosaic.PureOps.Ideal
import Idealize.ShloMosaic.PureOps.Ideal.Laws
import Idealize.ShloMosaic.Lib.ValueIdx

noncomputable section

namespace Cert.WeightedBCE

open Idealize.ShloMosaic Idealize.ShloMosaic.ValueIdx

/-- The float32 word of `1.0`, as the extended real it denotes. -/
abbrev one : EReal := Ideal.ofBits .f32 0x3F800000#32
/-- The float32 word nearest `1e-8`, as the extended real it denotes. -/
abbrev eps : EReal := Ideal.ofBits .f32 0x322BCC77#32

/-- The weight of one target: the positive class weight where the label is one, the negative one where it is zero,
    and the affine mix of the two in between. -/
def wgt (wp wn y : EReal) : EReal := y * wp + (one - y) * wn

/-- The log-likelihood of label `y` under the probability `x`, both logarithms kept away from zero by `ε`. -/
def ent (x y : EReal) : EReal := y * Ideal.log (x + eps) + (one - y) * Ideal.log (one - x + eps)

/-- One example's loss: the weighted mean, over its eight targets, of the negated log-likelihoods. -/
def rowLoss (wp wn x y : Fin 8 → EReal) : EReal :=
  Ideal.div (∑ k : Fin 8, -(wgt (wp k) (wn k) (y k)) * ent (x k) (y k)) (∑ k : Fin 8, wgt (wp k) (wn k) (y k))

/-- The loss of every example: entry `r` of the result is the loss of row `r` of the probabilities `X` and labels `Y`. -/
def lossArray (wp wn : Fin 8 → EReal) (X Y : (⟨2, ![2000000, 8]⟩ : Shape).Idx → EReal) :
    (⟨1, ![2000000]⟩ : Shape).Idx → EReal :=
  fun i => rowLoss wp wn (fun k => X (ix2 (⟨(i 0).val, (i 0).isLt⟩ : Fin 2000000) k))
    (fun k => Y (ix2 (⟨(i 0).val, (i 0).isLt⟩ : Fin 2000000) k))

theorem lossArray_apply (wp wn : Fin 8 → EReal) (X Y : (⟨2, ![2000000, 8]⟩ : Shape).Idx → EReal) (r : Fin 2000000) :
    lossArray wp wn X Y (ix1 r) = rowLoss wp wn (fun k => X (ix2 r k)) (fun k => Y (ix2 r k)) := rfl

/-- An array of `2000000` entries that is the loss of row `r` at every `r` is the loss array. -/
theorem eq_lossArray (wp wn : Fin 8 → EReal) (X Y : (⟨2, ![2000000, 8]⟩ : Shape).Idx → EReal)
    (A : (⟨1, ![2000000]⟩ : Shape).Idx → EReal)
    (h : ∀ r : Fin 2000000, A (ix1 r) = rowLoss wp wn (fun k => X (ix2 r k)) (fun k => Y (ix2 r k))) :
    A = lossArray wp wn X Y := by
  funext i
  obtain ⟨r, rfl⟩ : ∃ r : Fin 2000000, i = ix1 r := ⟨i 0, eq_ix1 i⟩
  exact h r

/-- A sum that starts from the float32 zero word is the plain sum. -/
theorem zero_word_add (s : EReal) : Ideal.ofBits .f32 0x00000000#32 + s = s := by
  rw [Ideal.ofBits_zero_f32, zero_add]

/-- Subtracting from the float32 zero word is negation. -/
theorem zero_word_sub (s : EReal) : Ideal.ofBits .f32 0x00000000#32 - s = -s := by
  rw [Ideal.ofBits_zero_f32, zero_sub]

end Cert.WeightedBCE

end
-- ==== Proof.RefRun.lean ====
/-
  The reference program's run, read back.

  The reference is a straight line of thirty-six host operations: the two class-weight tables as constants, their
  broadcasts over the rows, the per-element weight `w = y · wpos + (1 - y) · wneg`, the per-element loss
  `(-w) · (y · log (x + ε) + (1 - y) · log ((1 - x) + ε))`, the two row sums and their quotient. Every weakly fair
  execution of it terminates with the result buffer at the composition of those operations applied to the two
  argument arrays, and with the arguments unchanged. The composition is named in three steps — the weight array,
  the loss array, the quotient of the row sums — so that it can be read at an index one step at a time.
-/
import proofs.«112080_j50620484551284_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The contents types of the program's five buffer shapes. -/
abbrev A28 (F : FTy → Type) : Type := (⟨S2000000x8, .f32⟩ : BufTy).Contents (Elt F)
abbrev A18 (F : FTy → Type) : Type := (⟨S1x8, .f32⟩ : BufTy).Contents (Elt F)
abbrev A8 (F : FTy → Type) : Type := (⟨S8, .f32⟩ : BufTy).Contents (Elt F)
abbrev A0 (F : FTy → Type) : Type := (⟨S_, .f32⟩ : BufTy).Contents (Elt F)
abbrev A2 (F : FTy → Type) : Type := (⟨S2000000, .f32⟩ : BufTy).Contents (Elt F)

/-- @main's thirty-six operations, in order. -/
abbrev ops : List (HloOp τ sig (Elt F)) :=
  [ nullary main_cst (fun i => FloatOps.ofBits .f32 (lit0 (S8.rowMajor i))),
    nullary main_cst_0 (fun i => FloatOps.ofBits .f32 (lit1 (S8.rowMajor i))),
    unary main_cst main_v0 (broadcastInDim S1x8 ![1] bcast_S8_S1x8_1 : A8 F → A18 F),
    unary main_v0 main_v1 (broadcastInDim S2000000x8 ![0, 1] bcast_S1x8_S2000000x8_0_1 : A18 F → A28 F),
    binary main_arg1 main_v1 main_v2 (mulf : A28 F → A28 F → A28 F),
    nullary main_cst_1 (constant S_ .f32 0x3F800000#32),
    unary main_cst_1 main_v3 (broadcastInDim S2000000x8 ![] bcast_S_S2000000x8 : A0 F → A28 F),
    binary main_v3 main_arg1 main_v4 (subf : A28 F → A28 F → A28 F),
    unary main_cst_0 main_v5 (broadcastInDim S1x8 ![1] bcast_S8_S1x8_1 : A8 F → A18 F),
    unary main_v5 main_v6 (broadcastInDim S2000000x8 ![0, 1] bcast_S1x8_S2000000x8_0_1 : A18 F → A28 F),
    binary main_v4 main_v6 main_v7 (mulf : A28 F → A28 F → A28 F),
    binary main_v2 main_v7 main_v8 (addf : A28 F → A28 F → A28 F),
    unary main_v8 main_v9 (Host.negf : A28 F → A28 F),
    nullary main_cst_2 (constant S_ .f32 0x322BCC77#32),
    unary main_cst_2 main_v10 (broadcastInDim S2000000x8 ![] bcast_S_S2000000x8 : A0 F → A28 F),
    binary main_arg0 main_v10 main_v11 (addf : A28 F → A28 F → A28 F),
    unary main_v11 main_v12 (Host.log : A28 F → A28 F),
    binary main_arg1 main_v12 main_v13 (mulf : A28 F → A28 F → A28 F),
    nullary main_cst_3 (constant S_ .f32 0x3F800000#32),
    unary main_cst_3 main_v14 (broadcastInDim S2000000x8 ![] bcast_S_S2000000x8 : A0 F → A28 F),
    binary main_v14 main_arg1 main_v15 (subf : A28 F → A28 F → A28 F),
    nullary main_cst_4 (constant S_ .f32 0x3F800000#32),
    unary main_cst_4 main_v16 (broadcastInDim S2000000x8 ![] bcast_S_S2000000x8 : A0 F → A28 F),
    binary main_v16 main_arg0 main_v17 (subf : A28 F → A28 F → A28 F),
    nullary main_cst_5 (constant S_ .f32 0x322BCC77#32),
    unary main_cst_5 main_v18 (broadcastInDim S2000000x8 ![] bcast_S_S2000000x8 : A0 F → A28 F),
    binary main_v17 main_v18 main_v19 (addf : A28 F → A28 F → A28 F),
    unary main_v19 main_v20 (Host.log : A28 F → A28 F),
    binary main_v15 main_v20 main_v21 (mulf : A28 F → A28 F → A28 F),
    binary main_v13 main_v21 main_v22 (addf : A28 F → A28 F → A28 F),
    binary main_v9 main_v22 main_v23 (mulf : A28 F → A28 F → A28 F),
    nullary main_cst_6 (constant S_ .f32 0x00000000#32),
    binary main_v23 main_cst_6 main_v24 ((fun x v => Host.reduceAdd x v reducesTo_S2000000x8_S2000000_d1 h_S_) : A28 F → A0 F → A2 F),
    nullary main_cst_7 (constant S_ .f32 0x00000000#32),
    binary main_v8 main_cst_7 main_v25 ((fun x v => Host.reduceAdd x v reducesTo_S2000000x8_S2000000_d1 h_S_) : A28 F → A0 F → A2 F),
    binary main_v24 main_v25 main_v26 (Host.divf : A2 F → A2 F → A2 F) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., unary_bufs_sub .., binary_bufs_sub ..,
   nullary_bufs_sub .., unary_bufs_sub .., binary_bufs_sub .., unary_bufs_sub .., unary_bufs_sub ..,
   binary_bufs_sub .., binary_bufs_sub .., unary_bufs_sub .., nullary_bufs_sub .., unary_bufs_sub ..,
   binary_bufs_sub .., unary_bufs_sub .., binary_bufs_sub .., nullary_bufs_sub .., unary_bufs_sub ..,
   binary_bufs_sub .., nullary_bufs_sub .., unary_bufs_sub .., binary_bufs_sub .., nullary_bufs_sub ..,
   unary_bufs_sub .., binary_bufs_sub .., unary_bufs_sub .., binary_bufs_sub .., binary_bufs_sub ..,
   binary_bufs_sub .., nullary_bufs_sub .., binary_bufs_sub .., nullary_bufs_sub .., binary_bufs_sub ..,
   binary_bufs_sub ..⟩

/-- A scalar word broadcast over the whole `2000000 × 8` array. -/
abbrev splat (b : BitVec 32) : FVec F S2000000x8 .f32 :=
  broadcastInDim S2000000x8 ![] bcast_S_S2000000x8 (constant S_ .f32 b)

/-- A table of eight words, one per target, repeated on every row. -/
abbrev rows (lit : Fin 8 → BitVec 32) : FVec F S2000000x8 .f32 :=
  broadcastInDim S2000000x8 ![0, 1] bcast_S1x8_S2000000x8_0_1
    (broadcastInDim S1x8 ![1] bcast_S8_S1x8_1 (fun i : S8.Idx => (FloatOps.ofBits .f32 (lit (S8.rowMajor i)) : F .f32)))

/-- The per-element weights `y · wpos + (1 - y) · wneg`. -/
def weights (Y : FVec F S2000000x8 .f32) : FVec F S2000000x8 .f32 :=
  addf (mulf Y (rows lit0)) (mulf (subf (splat 0x3F800000#32) Y) (rows lit1))

/-- The per-element losses `(-w) · (y · log (x + ε) + (1 - y) · log ((1 - x) + ε))`. -/
def losses (X Y : FVec F S2000000x8 .f32) : FVec F S2000000x8 .f32 :=
  mulf (Host.negf (weights Y))
    (addf (mulf Y (Host.log (addf X (splat 0x322BCC77#32))))
      (mulf (subf (splat 0x3F800000#32) Y) (Host.log (addf (subf (splat 0x3F800000#32) X) (splat 0x322BCC77#32)))))

/-- The result: each row's summed loss over its summed weight. -/
def result (X Y : FVec F S2000000x8 .f32) : FVec F S2000000 .f32 :=
  Host.divf (Host.reduceAdd (losses X Y) (constant S_ .f32 0x00000000#32) reducesTo_S2000000x8_S2000000_d1 h_S_)
    (Host.reduceAdd (weights Y) (constant S_ .f32 0x00000000#32) reducesTo_S2000000x8_S2000000_d1 h_S_)

/-- On every device, for any float values, from any memory with zero counters: every weakly fair execution of
    @main terminates with the result buffer at `result` of the two argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v26).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.Run

end
-- ==== Proof.RefValue.lean ====
/-
  The reference's result, read at one row.

  The reference's result array is the quotient of two row sums: of the per-element losses and of the per-element
  weights. Read at row `r`, with the two class-weight tables read lane by lane, it is the weighted cross-entropy of
  the example in row `r` of the two argument arrays.
-/
import proofs.«112080_j50620484551284_1_alg».proof.Proof.RefRun
import proofs.«112080_j50620484551284_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Run Idealize.ShloMosaic Idealize.ShloMosaic.ValueIdx
open Cert.WeightedBCE

/-! ## The layout steps -/

/-- Summing the `2000000 × 8` array over its second axis: the index of row `r` with target `k` put back is `(r, k)`. -/
theorem lift_eq (h : S2000000x8.Reduces [1] S2000000) (r : Fin 2000000) (k : Fin 8) : h.lift (ix1 r) k = ix2 r k := by
  funext c; apply Fin.ext
  match c with
  | ⟨0, _⟩ => rfl
  | ⟨1, _⟩ => rfl

/-- The host's row sum from the zero word, at row `r`: the sum of the row's eight entries. -/
theorem rowsum_apply (v : FVec Ideal S2000000x8 .f32) (h' : S2000000x8.ReducesTo [1] S2000000) (hS : 0 < S_.numel)
    (r : Fin 2000000) :
    Host.reduceAdd v (constant (F := Ideal) S_ .f32 0x00000000#32) h' hS (ix1 r) = ∑ k : Fin 8, v (ix2 r k) := by
  have h : S2000000x8.Reduces [1] S2000000 := by decide
  refine (Ideal.hostReduceAdd_single h' h v _ (ix1 r)).trans ?_
  refine (zero_word_add _).trans ?_
  exact Finset.sum_congr rfl fun k _ => congrArg v (lift_eq h r k)

/-- A table of eight words repeated on every row reads, at `(r, k)`, its word `k`. -/
theorem rows_apply (lit : Fin 8 → BitVec 32) (r : Fin 2000000) (k : Fin 8) :
    rows (F := Ideal) lit (ix2 r k) = Ideal.ofBits .f32 (lit k) := by
  unfold rows
  refine (broadcastInDim_apply _ _ _ (ix2 r k) (ix2 (0 : Fin 1) k) fun a => ?_).trans ?_
  · match a with
    | ⟨0, _⟩ => rfl
    | ⟨1, _⟩ => rfl
  refine (broadcastInDim_apply _ _ _ (ix2 (0 : Fin 1) k) (ix1 k) fun a => ?_).trans ?_
  · match a with
    | ⟨0, _⟩ => rfl
  exact congrArg (fun q => Ideal.ofBits .f32 (lit q)) (Fin.ext (Shape.rowMajor_val_one (ix1 k)))

/-- A broadcast scalar word reads that word everywhere. -/
theorem splat_apply (b : BitVec 32) (j : S2000000x8.Idx) : splat (F := Ideal) b j = Ideal.ofBits .f32 b := rfl

/-- The host's negation, logarithm and quotient are the extended reals', entry by entry. -/
theorem hostNegf_apply {s : Shape} {φ : FTy} (a : FVec Ideal s φ) (i : s.Idx) : Host.negf a i = -(a i) := rfl
theorem hostLog_apply {s : Shape} {φ : FTy} (a : FVec Ideal s φ) (i : s.Idx) : Host.log a i = Ideal.log (a i) := rfl
theorem hostDivf_apply {s : Shape} {φ : FTy} (a b : FVec Ideal s φ) (i : s.Idx) :
    Host.divf a b i = Ideal.div (a i) (b i) := rfl

/-! ## The three named steps of the reference, at an index -/

/-- The weight array at `(r, k)`: target `k`'s weight for the label in row `r`. -/
theorem weights_apply (Y : FVec Ideal S2000000x8 .f32) (r : Fin 2000000) (k : Fin 8) :
    weights Y (ix2 r k) = wgt (Ideal.ofBits .f32 (lit0 k)) (Ideal.ofBits .f32 (lit1 k)) (Y (ix2 r k)) := by
  unfold weights wgt
  simp only [addf_apply, mulf_apply, subf_apply, rows_apply, splat_apply]

/-- The loss array at `(r, k)`: the negated weight times the log-likelihood of the label. -/
theorem losses_apply (X Y : FVec Ideal S2000000x8 .f32) (r : Fin 2000000) (k : Fin 8) :
    losses X Y (ix2 r k)
      = -(wgt (Ideal.ofBits .f32 (lit0 k)) (Ideal.ofBits .f32 (lit1 k)) (Y (ix2 r k))) * ent (X (ix2 r k)) (Y (ix2 r k)) := by
  unfold losses ent
  simp only [addf_apply, mulf_apply, subf_apply, hostNegf_apply, hostLog_apply, splat_apply, weights_apply]

/-- THE REFERENCE'S RESULT AT ROW `r`: the weighted cross-entropy of the example in row `r`. -/
theorem result_apply (X Y : FVec Ideal S2000000x8 .f32) (r : Fin 2000000) :
    result X Y (ix1 r)
      = rowLoss (fun k => Ideal.ofBits .f32 (lit0 k)) (fun k => Ideal.ofBits .f32 (lit1 k))
          (fun k => X (ix2 r k)) (fun k => Y (ix2 r k)) := by
  unfold result rowLoss
  rw [hostDivf_apply]
  refine congr (congrArg Ideal.div ?_) ?_
  · refine (rowsum_apply _ _ _ r).trans ?_
    exact Finset.sum_congr rfl fun k _ => losses_apply X Y r k
  · refine (rowsum_apply _ _ _ r).trans ?_
    exact Finset.sum_congr rfl fun k _ => weights_apply Y r k

end Cert.ReferenceIdeal.RefValue

end
-- ==== Proof.KernelPayload.lean ====
/-
  What the kernel body stores, read at one row.

  A grid point holds a block of `100000` rows of probabilities `x` and labels `y` (eight targets each) and the two
  class-weight rows `wpos`, `wneg`. The body forms the per-element weight `w = y · wpos + (1 - y) · wneg` (the weight
  rows broadcast over the block's rows), the per-element loss `(0 - w) · (y · log (x + ε) + (1 - y) · log ((1 - x) + ε))`,
  sums each over the eight lanes of a row, and stores the quotient of the two sums as a `100000 × 1` column. Read at row
  `p`, that is the weighted cross-entropy of the example in row `p` of the block.
-/
import proofs.«112080_j50620484551284_1_alg».proof.Proof.Gen.KernelIdeal.Skeleton
import proofs.«112080_j50620484551284_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.WeightedBCE

/-! ## The three layout steps -/

/-- Summing a `100000 × 8` block over its lanes: the index of row `p` with lane `k` put back is `(p, k)`. -/
theorem lift_eq (h : S100000x8.Reduces [1] S100000) (p : Fin 100000) (k : Fin 8) : h.lift (ix1 p) k = ix2 p k := by
  funext c; apply Fin.ext
  match c with
  | ⟨0, _⟩ => rfl
  | ⟨1, _⟩ => rfl

/-- So the lane sum of a block, at row `p`, is the sum of the row's eight entries. -/
theorem lanesum_apply (v : FVec Ideal S100000x8 .f32) (h : S100000x8.Reduces [1] S100000) (hφ : FKind.Formats .f32)
    (hacc : (0x00000000#32 : BitVec 32) = FKind.add.neutral .f32 hφ) (p : Fin 100000) :
    multiReduction .add [1] S100000 v 0x00000000#32 h hφ hacc (ix1 p) = ∑ k : Fin 8, v (ix2 p k) := by
  refine (Ideal.multiReduction_add_single v 0x00000000#32 h hφ hacc (ix1 p)).trans ?_
  exact Finset.sum_congr rfl fun k _ => congrArg v (lift_eq h p k)

/-- A vector of `100000` entries viewed as a column reads, at `(p, 0)`, its entry `p`. -/
theorem column_apply (v : FVec Ideal S100000 .f32) (h : S100000.ShapeCasts S100000x1) (p : Fin 100000) (u : Fin 1) :
    shapeCast S100000x1 v h (ix2 p u) = v (ix1 p) :=
  shapeCast_apply v h _ _ (by
    have hu : u.val = 0 := by omega
    rw [Shape.rowMajor_val_two, Shape.rowMajor_val_one]
    show p.val = p.val * 1 + u.val
    omega)

/-- A weight row, viewed as itself and broadcast over the block's rows, reads its lane `k` at every `(p, k)`. -/
theorem weightrow_apply (x : FVec Ideal S1x8 .f32) (hc : S1x8.ShapeCasts S1x8) (hb : S1x8.Broadcasts S100000x8)
    (p : Fin 100000) (k : Fin 8) :
    broadcastTo S100000x8 (shapeCast S1x8 x hc) hb (ix2 p k) = x (ix2 (0 : Fin 1) k) := by
  rw [broadcastTo_1b_ab_apply, shapeCast_self]

/-! ## The body's two per-element arrays -/

/-- The block's per-element weights. -/
def wblk (x1 : FVec Ideal S100000x8 .f32) (x2 x3 : FVec Ideal S1x8 .f32) : FVec Ideal S100000x8 .f32 :=
  addf (mulf x1 (broadcastTo S100000x8 (shapeCast S1x8 x2 shapeCasts_S1x8_S1x8) broadcasts_S1x8_S100000x8))
    (mulf (subf (broadcast S100000x8 (Scalar.ofBits .f32 0x3F800000#32)) x1)
      (broadcastTo S100000x8 (shapeCast S1x8 x3 shapeCasts_S1x8_S1x8) broadcasts_S1x8_S100000x8))

/-- The block's per-element losses. -/
def lblk (x0 x1 : FVec Ideal S100000x8 .f32) (x2 x3 : FVec Ideal S1x8 .f32) : FVec Ideal S100000x8 .f32 :=
  mulf (subf (broadcast S100000x8 (Scalar.ofBits .f32 0x00000000#32)) (wblk x1 x2 x3))
    (addf (mulf x1 (log (addf x0 (broadcast S100000x8 (Scalar.ofBits .f32 0x322BCC77#32)))))
      (mulf (subf (broadcast S100000x8 (Scalar.ofBits .f32 0x3F800000#32)) x1)
        (log (addf (subf (broadcast S100000x8 (Scalar.ofBits .f32 0x3F800000#32)) x0)
          (broadcast S100000x8 (Scalar.ofBits .f32 0x322BCC77#32))))))

/-- The stored column is the quotient of the two lane sums. -/
theorem pay_eq (x0 x1 : Vec Ideal S100000x8 .f32) (x2 x3 : Vec Ideal S1x8 .f32) :
    k0_pay1 (F := Ideal) x0 x1 x2 x3
      = divf (shapeCast S100000x1 (multiReduction .add [1] S100000 (lblk x0 x1 x2 x3) 0x00000000#32
            reduces_S100000x8_S100000 (.inl rfl) rfl) shapeCasts_S100000_S100000x1)
          (shapeCast S100000x1 (multiReduction .add [1] S100000 (wblk x1 x2 x3) 0x00000000#32
            reduces_S100000x8_S100000 (.inl rfl) rfl) shapeCasts_S100000_S100000x1) := rfl

/-- The weight array at `(p, k)`: target `k`'s weight for the label in row `p`. -/
theorem wblk_apply (x1 : FVec Ideal S100000x8 .f32) (x2 x3 : FVec Ideal S1x8 .f32) (p : Fin 100000) (k : Fin 8) :
    wblk x1 x2 x3 (ix2 p k) = wgt (x2 (ix2 (0 : Fin 1) k)) (x3 (ix2 (0 : Fin 1) k)) (x1 (ix2 p k)) := by
  show x1 (ix2 p k) * broadcastTo S100000x8 (shapeCast S1x8 x2 shapeCasts_S1x8_S1x8) broadcasts_S1x8_S100000x8 (ix2 p k)
      + (one - x1 (ix2 p k)) * broadcastTo S100000x8 (shapeCast S1x8 x3 shapeCasts_S1x8_S1x8) broadcasts_S1x8_S100000x8 (ix2 p k) = _
  rw [weightrow_apply, weightrow_apply]
  rfl

/-- The loss array at `(p, k)`: the negated weight times the log-likelihood of the label. -/
theorem lblk_apply (x0 x1 : FVec Ideal S100000x8 .f32) (x2 x3 : FVec Ideal S1x8 .f32) (p : Fin 100000) (k : Fin 8) :
    lblk x0 x1 x2 x3 (ix2 p k)
      = -(wgt (x2 (ix2 (0 : Fin 1) k)) (x3 (ix2 (0 : Fin 1) k)) (x1 (ix2 p k))) * ent (x0 (ix2 p k)) (x1 (ix2 p k)) := by
  show (Ideal.ofBits .f32 0x00000000#32 - wblk x1 x2 x3 (ix2 p k)) * ent (x0 (ix2 p k)) (x1 (ix2 p k)) = _
  rw [wblk_apply, zero_word_sub]

/-! ## The stored column at a row -/

/-- THE BODY'S STORE AT ROW `p`: the weighted cross-entropy of the example in row `p` of the block, under the two
    weight rows the point holds. -/
theorem pay_apply (x0 x1 : Vec Ideal S100000x8 .f32) (x2 x3 : Vec Ideal S1x8 .f32) (p : Fin 100000) (u : Fin 1) :
    k0_pay1 (F := Ideal) x0 x1 x2 x3 (ix2 p u)
      = rowLoss (fun k => x2 (ix2 (0 : Fin 1) k)) (fun k => x3 (ix2 (0 : Fin 1) k))
          (fun k => x0 (ix2 p k)) (fun k => x1 (ix2 p k)) := by
  rw [pay_eq, divf_apply, column_apply, column_apply]
  unfold rowLoss
  refine congr (congrArg Ideal.div ?_) ?_
  · refine (lanesum_apply _ _ _ _ p).trans ?_
    exact Finset.sum_congr rfl fun k _ => lblk_apply x0 x1 x2 x3 p k
  · refine (lanesum_apply _ _ _ _ p).trans ?_
    exact Finset.sum_congr rfl fun k _ => wblk_apply x1 x2 x3 p k

end Cert.KernelIdeal.Payload

end
-- ==== Proof.KernelValue.lean ====
/-
  What the kernel program leaves in its result, as one function of its two arguments.

  The grid has twenty points. Point `t` stages rows `100000·t … 100000·t + 99999` of the probabilities and of the
  labels, and the two class-weight rows (each a constant table of eight words, reshaped to `1 × 8` before the
  launch); its body writes, into rows `100000·t …` of a `2000000 × 1` column, the loss of each of those rows. The
  twenty blocks tile the column, so after the launch entry `(r, 0)` of the column is the loss of row `r`. The one
  host operation after the launch views the column as a vector of `2000000` entries: entry `r` is the loss of row `r`.
-/
import proofs.«112080_j50620484551284_1_alg».proof.Proof.Gen.KernelIdeal.Frame
import proofs.«112080_j50620484551284_1_alg».proof.Proof.KernelPayload
import proofs.«112080_j50620484551284_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.WeightedBCE
open Idealize.ShloMosaic.Pipeline (Dat)

variable (m : (ℓ : Loc nD τ sig) → Buf (Elt Ideal) ℓ) (ρ : Dev nD → PrngReg)

/-! ## The column the launch writes, as one function of the arrays the launch finds -/

theorem hz : (![0, 0] : Fin 2 → Nat) = fun _ => 0 := funext fun a => by fin_cases a <;> rfl

/-- The row an index of the `2000000 × 1` column lies on. -/
abbrev rowOf (i : S2000000x1.Idx) : Fin 2000000 := ⟨(i 0).val, (i 0).isLt⟩

/-- Entry `(r, 0)` of the column: the loss of row `r` of `X` and `Y` under the weight rows `WP`, `WN`. -/
def column (X Y : FVec Ideal S2000000x8 .f32) (WP WN : FVec Ideal S1x8 .f32) : FVec Ideal S2000000x1 .f32 :=
  fun i => rowLoss (fun k => WP (ix2 (0 : Fin 1) k)) (fun k => WN (ix2 (0 : Fin 1) k))
    (fun k => X (ix2 (rowOf i) k)) (fun k => Y (ix2 (rowOf i) k))

/-- The printed index maps, decided over the twenty points: the two row-blocked inputs move with the output along
    the rows and stay at column block zero; the weight rows stay at block `(0, 0)`; the output stays at column block zero. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 :=
  (by decide +kernel : ∀ t : Fin grid0.N, _)

/-- Every row block of the column is some point's. -/
theorem idx_onto : ∀ q : Fin 20, ∃ t : Fin cfg0.N, win0_4.index t = ![q.val, 0] :=
  (by decide +kernel : ∀ q : Fin 20, ∃ t : Fin grid0.N, win0_4.index t = ![q.val, 0])

/-- WHAT POINT `t` WRITES BACK is block `t` of `column` of the arrays as the launch finds them: the body's stored
    column at row `p` is the loss of row `p` of the point's blocks, and row `p` of the blocks is row
    `100000·t + p` of the arrays, the same row the output block's row `p` lies on. -/
theorem flushed_eq (c : Dev nD) (t : Fin cfg0.N) :
    (dats m 0 c).flushed 4 t
      = ((cfg0.win 4).blk t).view.read (Elt Ideal)
          (column (V m c main_arg0) (V m c main_arg1) (V m c main_v0) (V m c main_v1)) := by
  show (cfg0.win 4).cut (grid0.coords t) ((dats m 0 c).after 4 t) = _
  rw [after0_4]
  unfold out0_4
  rw [View.canon_unit_zero hz]
  simp only [View.ld_unit_zero (S := S100000x8) hz, View.ld_unit_zero (S := S1x8) hz]
  obtain ⟨e0, e1, e2, e3, e4, e5, e6, e7, e8⟩ := idx_facts t
  funext j
  obtain ⟨p, u, rfl⟩ : ∃ (p : Fin 100000) (u : Fin 1), j = ix2 p u := ⟨j 0, j 1, eq_ix2 j⟩
  show k0_pay1 (F := Ideal) (iblk m c 0 t) (iblk m c 1 t) (iblk m c 2 t) (iblk m c 3 t) (ix2 p u)
      = column (V m c main_arg0) (V m c main_arg1) (V m c main_v0) (V m c main_v1) (((cfg0.win 4).blk t).view.emb (ix2 p u))
  refine (Payload.pay_apply (iblk m c 0 t) (iblk m c 1 t) (iblk m c 2 t) (iblk m c 3 t) p u).trans ?_
  unfold column
  have h0 : ∀ k : Fin 8, iblk m c 0 t (ix2 p k)
      = V m c main_arg0 (ix2 (rowOf (((cfg0.win 4).blk t).view.emb (ix2 p u))) k) := fun k => by
    show V m c main_arg0 (((cfg0.win 0).blk t).view.emb (ix2 p k)) = _
    refine congrArg (V m c main_arg0) (funext fun a => Fin.ext ?_)
    match a with
    | ⟨0, _⟩ => show win0_0.index t (0 : Fin 2) * 100000 + 1 * p.val = win0_4.index t (0 : Fin 2) * 100000 + 1 * p.val; omega
    | ⟨1, _⟩ => show win0_0.index t (1 : Fin 2) * 8 + 1 * k.val = k.val; omega
  have h1 : ∀ k : Fin 8, iblk m c 1 t (ix2 p k)
      = V m c main_arg1 (ix2 (rowOf (((cfg0.win 4).blk t).view.emb (ix2 p u))) k) := fun k => by
    show V m c main_arg1 (((cfg0.win 1).blk t).view.emb (ix2 p k)) = _
    refine congrArg (V m c main_arg1) (funext fun a => Fin.ext ?_)
    match a with
    | ⟨0, _⟩ => show win0_1.index t (0 : Fin 2) * 100000 + 1 * p.val = win0_4.index t (0 : Fin 2) * 100000 + 1 * p.val; omega
    | ⟨1, _⟩ => show win0_1.index t (1 : Fin 2) * 8 + 1 * k.val = k.val; omega
  have h2 : ∀ k : Fin 8, iblk m c 2 t (ix2 (0 : Fin 1) k) = V m c main_v0 (ix2 (0 : Fin 1) k) := fun k => by
    show V m c main_v0 (((cfg0.win 2).blk t).view.emb (ix2 (0 : Fin 1) k)) = _
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 8 + 1 * k.val = k.val; omega
  have h3 : ∀ k : Fin 8, iblk m c 3 t (ix2 (0 : Fin 1) k) = V m c main_v1 (ix2 (0 : Fin 1) k) := fun k => by
    show V m c main_v1 (((cfg0.win 3).blk t).view.emb (ix2 (0 : Fin 1) k)) = _
    refine congrArg (V m c main_v1) (funext fun a => Fin.ext ?_)
    match a with
    | ⟨0, _⟩ => show win0_3.index t (0 : Fin 2) * 1 + 1 * 0 = 0; omega
    | ⟨1, _⟩ => show win0_3.index t (1 : Fin 2) * 8 + 1 * k.val = k.val; omega
  exact congr (congr (congr (congrArg rowLoss (funext h2)) (funext h3)) (funext h0)) (funext h1)

/-- An index of the column is in point `t`'s block iff each coordinate is in the block's range on its axis. -/
theorem mem_blk (t : Fin cfg0.N) (i : S2000000x1.Idx) :
    i ∈ ((cfg0.win 4).blk t).view.set ↔ ∀ a : Fin 2, win0_4.index t a * S100000x1.size a ≤ (i a).val
      ∧ (i a).val < win0_4.index t a * S100000x1.size a + S100000x1.size a := by
  show i ∈ ((View.whole main_v2).slice (win0_4.rect t)).set ↔ _
  rw [View.set_slice_whole, Rect.mem_set_unit]
  exact Iff.rfl

/-- The twenty blocks cover the column: row `r` is in the block of point `r / 100000`. -/
theorem cover (i : S2000000x1.Idx) :
    ∃ t : Fin cfg0.N, (cfg0.win 4).flush t = true ∧ i ∈ ((cfg0.win 4).blk t).view.set := by
  have hi0 : (i 0).val < 2000000 := (i 0).isLt
  have hi1 : (i 1).val < 1 := (i 1).isLt
  obtain ⟨t, ht⟩ := idx_onto ⟨(i 0).val / 100000, by omega⟩
  have q0 : win0_4.index t (0 : Fin 2) = (i 0).val / 100000 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 100000 ≤ (i 0).val ∧ (i 0).val < win0_4.index t (0 : Fin 2) * 100000 + 100000
    omega
  | ⟨1, _⟩ =>
    show win0_4.index t (1 : Fin 2) * 1 ≤ (i 1).val ∧ (i 1).val < win0_4.index t (1 : Fin 2) * 1 + 1
    omega

/-- THE COLUMN AFTER THE LAUNCH is `column` of the arrays as the launch finds them. -/
theorem final (c : Dev nD) :
    (dats m 0 c).arrAt 4 cfg0.N = column (V m c main_arg0) (V m c main_arg1) (V m c main_v0) (V m c main_v1) :=
  (dats m 0 c).arrAt_eq_of_cover 4 _ (fun t _ => flushed_eq m c t) cover

/-! ## The weight rows the launch finds -/

/-- The positive-class weight row: the constant table, viewed `1 × 8`. -/
theorem V_main_v0 (c : Dev nD) :
    (V m c main_v0 : S1x8.Idx → EReal)
      = shapeCast S1x8 (fun i : S8.Idx => Ideal.ofBits .f32 (lit0 (S8.rowMajor i))) shapeCasts_S8_S1x8 := by
  show StableHlo.after hostOps0 (fun b => m (c, b)) (Proc.devRef .tc main_v0) = _
  after_results
  rfl

/-- The negative-class weight row likewise. -/
theorem V_main_v1 (c : Dev nD) :
    (V m c main_v1 : S1x8.Idx → EReal)
      = shapeCast S1x8 (fun i : S8.Idx => Ideal.ofBits .f32 (lit1 (S8.rowMajor i))) shapeCasts_S8_S1x8 := by
  show StableHlo.after hostOps0 (fun b => m (c, b)) (Proc.devRef .tc main_v1) = _
  after_results
  rfl

/-- A table of eight words viewed `1 × 8` reads its word `k` at `(0, k)`. -/
theorem table_row_apply (lit : Fin 8 → BitVec 32) (h : S8.ShapeCasts S1x8) (k : Fin 8) :
    shapeCast S1x8 (fun i : S8.Idx => Ideal.ofBits .f32 (lit (S8.rowMajor i))) h (ix2 (0 : Fin 1) k)
      = Ideal.ofBits .f32 (lit k) := by
  refine (shapeCast_a_1a_apply _ h (0 : Fin 1) k).trans ?_
  exact congrArg (fun q => Ideal.ofBits .f32 (lit q)) (Fin.ext (Shape.rowMajor_val_one (ix1 k)))

theorem V_main_v0_apply (c : Dev nD) (k : Fin 8) : V m c main_v0 (ix2 (0 : Fin 1) k) = Ideal.ofBits .f32 (lit0 k) :=
  (congrFun (V_main_v0 m c) (ix2 (0 : Fin 1) k)).trans (table_row_apply lit0 _ k)

theorem V_main_v1_apply (c : Dev nD) (k : Fin 8) : V m c main_v1 (ix2 (0 : Fin 1) k) = Ideal.ofBits .f32 (lit1 k) :=
  (congrFun (V_main_v1 m c) (ix2 (0 : Fin 1) k)).trans (table_row_apply lit1 _ k)

/-! ## The host operation after the launch -/

/-- The program's result buffer after the run. -/
abbrev resultBuf (c : Dev nD) : FVec Ideal S2000000 .f32 :=
  Pipeline.afterTail₀ cfgs (dats m) 0 (V0 m) [hostOps1] c main_v3

/-- The result is the column viewed as a vector of `2000000` entries. -/
theorem resultBuf_eq (c : Dev nD) :
    resultBuf m c = shapeCast S2000000 ((dats m 0 c).arrAt 4 cfg0.N) shapeCasts_S2000000x1_S2000000 := by
  unfold resultBuf Pipeline.afterTail₀
  show StableHlo.after hostOps1 _ (Proc.devRef .tc main_v3) = _
  after_results
  exact congrArg (fun A : FVec Ideal S2000000x1 .f32 => shapeCast S2000000 A shapeCasts_S2000000x1_S2000000)
    (Pipeline.withArrays_arr spec0 launch0.win.arr_inj c _ _ 4)

/-- ENTRY `r` OF THE RESULT is the loss of row `r` of the two arguments, under the two constant weight tables. -/
theorem resultBuf_apply (c : Dev nD) (r : Fin 2000000) :
    resultBuf m c (ix1 r)
      = rowLoss (fun k => Ideal.ofBits .f32 (lit0 k)) (fun k => Ideal.ofBits .f32 (lit1 k))
          (fun k => m ((c.tc : Thread nD τ).loc main_arg0) (ix2 r k))
          (fun k => m ((c.tc : Thread nD τ).loc main_arg1) (ix2 r k)) := by
  refine (congrFun (resultBuf_eq m c) (ix1 r)).trans ?_
  refine (shapeCast_apply _ _ (ix1 r) (ix2 r (0 : Fin 1)) (by
    rw [Shape.rowMajor_val_two, Shape.rowMajor_val_one]
    show r.val * 1 + 0 = r.val
    omega)).trans ?_
  refine (congrFun (final m c) (ix2 r (0 : Fin 1))).trans ?_
  unfold column
  refine congr (congr (congr (congrArg rowLoss (funext fun k => V_main_v0_apply m c k))
    (funext fun k => V_main_v1_apply m c k)) (funext fun k => ?_)) (funext fun k => ?_)
  · exact congrFun (V_main_arg0 m c) (ix2 r k)
  · exact congrFun (V_main_arg1 m c) (ix2 r k)

/-! ## The run, read -/

/-- Every weakly fair execution of the kernel program terminates with the result buffer at the loss array of the two
    arguments, and with the arguments unchanged. -/
theorem run : θ_run defs (onTc (τ := τ) (main (F := Ideal))) ⟨m, fun _ => 0, ρ⟩ fun r => ∀ c : Dev nD,
      r.2.mem ((c.tc : Thread nD τ).loc main_v3)
        = lossArray (fun k => Ideal.ofBits .f32 (lit0 k)) (fun k => Ideal.ofBits .f32 (lit1 k))
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 rfl (by decide))).trans
        (eq_lossArray _ _ _ _ (resultBuf m c) (resultBuf_apply m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The kernel and its reference compute, for each of two million examples, the weighted binary cross-entropy of the
  example's eight predicted probabilities against its eight labels, as a weighted mean over the targets:
  `(∑ₖ -(wₖ) · (yₖ · log (xₖ + ε) + (1 - yₖ) · log (1 - xₖ + ε))) / (∑ₖ wₖ)` with `wₖ = yₖ · wposₖ + (1 - yₖ) · wnegₖ`.

  The kernel walks the rows in twenty blocks of `100000`; at each block it forms the weights and losses of the
  block, sums each over the eight lanes of a row and stores the quotient as a column, and the program then views the
  `2000000 × 1` column as a vector. The reference does the same arithmetic on the whole arrays at once. Over the
  extended reals the two agree entry by entry with no use of finiteness: both carry the same words for `1`, `ε` and the
  two weight tables; the kernel's `0 - w` is the reference's `-w`; the kernel's lane sum is the reference's row sum (each
  from the zero word); and the kernel's and the host's logarithm and quotient are one function each.

  The frames of the two kernel programs are their generated frames; the reference's frame is its run (Proof/RefRun.lean)
  with the result dropped; the idealization rewrote nothing, so `preserves` is trivial. Both results are read at a row in
  Proof/KernelValue.lean (over Proof/KernelPayload.lean) and Proof/RefValue.lean, against the one definition of a row's
  loss in Proof/Spec.lean.
-/
import proofs.«112080_j50620484551284_1_alg».proof.Defs
import proofs.«112080_j50620484551284_1_alg».proof.Proof.Gen.Kernel
import proofs.«112080_j50620484551284_1_alg».proof.Proof.Gen.Kernel.Skeleton
import proofs.«112080_j50620484551284_1_alg».proof.Proof.Gen.Kernel.Launch
import proofs.«112080_j50620484551284_1_alg».proof.Proof.Gen.Kernel.Points
import proofs.«112080_j50620484551284_1_alg».proof.Proof.Gen.Kernel.Frame
import proofs.«112080_j50620484551284_1_alg».proof.Proof.Gen.KernelIdeal
import proofs.«112080_j50620484551284_1_alg».proof.Proof.Gen.KernelIdeal.Skeleton
import proofs.«112080_j50620484551284_1_alg».proof.Proof.Gen.KernelIdeal.Launch
import proofs.«112080_j50620484551284_1_alg».proof.Proof.Gen.KernelIdeal.Points
import proofs.«112080_j50620484551284_1_alg».proof.Proof.Gen.KernelIdeal.Frame
import proofs.«112080_j50620484551284_1_alg».proof.Proof.Gen.ReferenceIdeal
import proofs.«112080_j50620484551284_1_alg».proof.Proof.Gen.Pre_finite_inputs
import proofs.«112080_j50620484551284_1_alg».proof.Proof.Spec
import proofs.«112080_j50620484551284_1_alg».proof.Proof.RefRun
import proofs.«112080_j50620484551284_1_alg».proof.Proof.RefValue
import proofs.«112080_j50620484551284_1_alg».proof.Proof.KernelPayload
import proofs.«112080_j50620484551284_1_alg».proof.Proof.KernelValue
import Idealize.ShloMosaic.Adequacy
import Idealize.ShloMosaic.Init

noncomputable section

namespace Cert.Proof

open Idealize.ShloMosaic Idealize.SL.Sem Cert.WeightedBCE

/-- The two programs carry the same table of positive-class weights, -/
theorem wpos_eq : Cert.KernelIdeal.lit0 = Cert.ReferenceIdeal.lit0 := by
  funext k; fin_cases k <;> rfl

/-- and the same table of negative-class weights. -/
theorem wneg_eq : Cert.KernelIdeal.lit1 = Cert.ReferenceIdeal.lit1 := by
  funext k; fin_cases k <;> rfl

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Run.run (F := Ideal) m ρ)

/-- The idealization rewrote no operation. -/
theorem preserves : Cert.preserves_Kernel_KernelIdeal := trivial

/-- Both programs end with the loss array of their arguments; the arguments agree and so do the weight tables. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2]
  refine (eq_lossArray _ _ _ _ _ (Cert.ReferenceIdeal.RefValue.result_apply _ _)).trans ?_
  rw [wpos_eq, wneg_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
